-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x32 : Shape := ⟨2, ![1, 32]⟩
abbrev S100000x32 : Shape := ⟨2, ![100000, 32]⟩
abbrev S20000x128 : Shape := ⟨2, ![20000, 128]⟩
abbrev S20000x32 : Shape := ⟨2, ![20000, 32]⟩
abbrev S1600000x32 : Shape := ⟨2, ![1600000, 32]⟩
abbrev S20000x1 : Shape := ⟨2, ![20000, 1]⟩

abbrev nBuf : Space → Nat
  | .hbm => 47
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000x1, .f32⟩
  | .hbm, ⟨12, _⟩ => ⟨S_, .f32⟩
  | .hbm, ⟨13, _⟩ => ⟨S100000x1, .f32⟩
  | .hbm, ⟨14, _⟩ => ⟨S1600000x1, .i32⟩
  | .hbm, ⟨15, _⟩ => ⟨S100000x1, .f32⟩
  | .hbm, ⟨16, _⟩ => ⟨S1x32, .f32⟩
  | .hbm, ⟨17, _⟩ => ⟨S100000x32, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x32, .f32⟩
  | .local _ .vmem, ⟨0, _⟩ => ⟨S20000x128, .f32⟩
  | .local _ .vmem, ⟨1, _⟩ => ⟨S20000x128, .f32⟩
  | .local _ .vmem, ⟨2, _⟩ => ⟨S128x32, .f32⟩
  | .local _ .vmem, ⟨3, _⟩ => ⟨S1x32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S20000x32, .f32⟩
  | .local _ .vmem, ⟨8, _⟩ => ⟨S20000x1, .f32⟩
  | .local _ .vmem, ⟨9, _⟩ => ⟨S20000x1, .f32⟩
  | .local _ .vmem, ⟨10, _⟩ => ⟨S32x32, .f32⟩
  | .local _ .vmem, ⟨11, _⟩ => ⟨S1x32, .f32⟩
  | .local _ .vmem, ⟨12, _⟩ => ⟨S20000x32, .f32⟩
  | .local _ .vmem, ⟨13, _⟩ => ⟨S20000x32, .f32⟩
  | .local _ .vmem, ⟨14, _⟩ => ⟨S20000x32, .f32⟩
  | .local _ .vmem, ⟨15, _⟩ => ⟨S20000x32, .f32⟩
  | .local _ .vmem, ⟨16, _⟩ => ⟨S20000x1, .f32⟩
  | .local _ .vmem, ⟨17, _⟩ => ⟨S20000x1, .f32⟩
  | .local _ .vmem, ⟨18, _⟩ => ⟨S20000x32, .f32⟩
  | .local _ .vmem, ⟨19, _⟩ => ⟨S20000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S20000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  shapeCasts_S32_S1x32 : S32.ShapeCasts S1x32
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  bcast_S_S1600000 : S_.BroadcastsInDim S1600000 (![] : Fin 0 → Fin S1600000.rank)
  bcast_S_S100000x32 : S_.BroadcastsInDim S100000x32 (![] : Fin 0 → Fin S100000x32.rank)
  shapeCasts_S20000x32_S20000x32 : S20000x32.ShapeCasts S20000x32
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x32 : S20000x1.Broadcasts S20000x32
  inb_S32x32_S32x32_0_0 : ∀ a, (![0, 0] : Fin 2 → Nat) a + S32x32.size a ≤ S32x32.size a
  h_S32x32 : 0 < S32x32.numel
  scatter_S100000x1_S1600000x1_S1600000x1_1_0_0_1_wf : ScatterDims.WF S100000x1 S1600000x1 S1600000x1 [1] [0] [0] 1
  dot_S20000x128_S128x32_S20000x32_1_0_0_1_n_n_wf : DotDims.WF S20000x128 S128x32 S20000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S20000x32_S32x32_S20000x32_1_0_0_1_n_n_wf : DotDims.WF S20000x32 S32x32 S20000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x32.size a ≤ S100000x32.size a
  hwx0_3 : ∀ i : grid0.Coords, EltTy.bits .f32 = 32 ∨ (Rect.block (s := S100000x32) S20000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S100000x32.size a
  hwx1_0 : ∀ i : grid1.Coords, EltTy.bits .f32 = 32 ∨ (Rect.block (s := S100000x32) S20000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S100000x1.size a
  hwx1_1 : ∀ i : grid1.Coords, EltTy.bits .f32 = 32 ∨ (Rect.block (s := S100000x1) S20000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S20000x32.size a ≤ S100000x32.size a
  hwx1_4 : ∀ i : grid1.Coords, EltTy.bits .f32 = 32 ∨ (Rect.block (s := S100000x32) S20000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S100000x1.size a
  hwx2_1 : ∀ i : grid2.Coords, EltTy.bits .f32 = 32 ∨ (Rect.block (s := S100000x1) S20000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x32.size a ≤ S100000x32.size a
  hwx2_2 : ∀ i : grid2.Coords, EltTy.bits .f32 = 32 ∨ (Rect.block (s := S100000x32) S20000x32.size (cc2_transform_2 i) (hinb2_2 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S20000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S20000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S20000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x32, .f32⟩
  | .hbm, ⟨11, _⟩ => ⟨S1x32, .f32⟩
  | .hbm, ⟨12, _⟩ => ⟨S100000x32, .f32⟩
  | .hbm, ⟨13, _⟩ => ⟨S100000x32, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x32, .f32⟩
  | .hbm, ⟨37, _⟩ => ⟨S100000x32, .f32⟩
  | .hbm, ⟨38, _⟩ => ⟨S_, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x32, .f32⟩
  | .hbm, ⟨68, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000x1_S1600000x1_S1600000x1_1_0_0_1_wf : ScatterDims.WF S100000x1 S1600000x1 S1600000x1 [1] [0] [0] 1
  dot_S100000x32_S32x32_S100000x32_1_0_0_1_n_n_wf : DotDims.WF S100000x32 S32x32 S100000x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Fold.lean ====
/-
  The kernel program's buffers at the boundaries between its segments, read back to the arguments.
  The edge list `e` gives every edge a source (row 0) and a target (row 1). Both are read once, before the
  first dense stage, and never written again. Between two dense stages the program gathers the rows of the
  stage's result at the edge sources (a negative source counted from the end) and adds each gathered row
  into the row of its edge's target, starting from zero: `gatherSum`. The in-degree `degreeOf` is the same
  sum of a column of ones. A bias vector is presented to a dense stage as a one-row matrix: `biasRow`.
  None of these host functions is ever opened: the reference applies the same ones.
-/
import proofs.«131731_j71193377899389_1_alg».proof.Proof.Gen.KernelIdeal.Frame
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe Idealize.SL.Sem
open Idealize.ShloMosaic.StableHlo (after_cons after_nil)
open Idealize.ShloMosaic.Pipeline (Dat)

variable {F : FTy → Type} [FloatOps F]

/-! ## The host functions between the dense stages -/

/-- The edges' sources: row 0 of the edge list as a vector. -/
def srcOf (e : Vec F S2x1600000 .i32) : Vec F S1600000 .i32 :=
  shapeCast S1600000 (extractStridedSlice S1x1600000 ![0, 0] e slices_S2x1600000_S1x1600000_0_0) shapeCasts_S1x1600000_S1600000

/-- The edges' targets: row 1 of the edge list as a vector. -/
def dstOf (e : Vec F S2x1600000 .i32) : Vec F S1600000 .i32 :=
  shapeCast S1600000 (extractStridedSlice S1x1600000 ![1, 0] e slices_S2x1600000_S1x1600000_1_0) shapeCasts_S1x1600000_S1600000

/-- The in-degree of every node: a one for each edge, summed into its target's row. -/
def degreeOf (d : Vec F S1600000 .i32) : Vec F S100000x1 .f32 :=
  Host.scatterAdd scatter_S100000x1_S1600000x1_S1600000x1_1_0_0_1
    (broadcastInDim S100000x1 ![] bcast_S_S100000x1 (constant S_ .f32 0x00000000#32))
    (broadcastInDim S1600000x1 ![0] bcast_S1600000_S1600000x1_0 d)
    (broadcastInDim S1600000x1 ![] bcast_S_S1600000x1 (constant S_ .f32 0x3F800000#32))

/-- The messages of every edge (row `s j` of `t`, a negative `s j` counted from the end), summed into the
    target's row. -/
def gatherSum (s d : Vec F S1600000 .i32) (t : Vec F S100000x32 .f32) : Vec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (Host.gather gather_S100000x32_S1600000x1_S1600000x32_1_0_n_n_0_1_132 t
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector as the one-row matrix a dense stage reads. -/
def biasRow (b : Vec F S32 .f32) : Vec F S1x32 .f32 := shapeCast S1x32 b shapeCasts_S32_S1x32

variable (m : (ℓ : Loc nD τ sig) → Buf (Elt F) ℓ) (ρ : Dev nD → PrngReg)

/-! ## Before the first dense stage -/

theorem W1_x (c : Dev nD) : W1 m ρ c (Proc.devRef .tc main_arg0) = m ((c : Thread nD τ).loc main_arg0) := by
  show StableHlo.after hostOps0 (W0 m ρ c) (Proc.devRef .tc main_arg0) = _
  after_results
theorem W1_w1 (c : Dev nD) : W1 m ρ c (Proc.devRef .tc main_arg2) = m ((c : Thread nD τ).loc main_arg2) := by
  show StableHlo.after hostOps0 (W0 m ρ c) (Proc.devRef .tc main_arg2) = _
  after_results
theorem W1_w2 (c : Dev nD) : W1 m ρ c (Proc.devRef .tc main_arg4) = m ((c : Thread nD τ).loc main_arg4) := by
  show StableHlo.after hostOps0 (W0 m ρ c) (Proc.devRef .tc main_arg4) = _
  after_results
theorem W1_b2 (c : Dev nD) : W1 m ρ c (Proc.devRef .tc main_arg5) = m ((c : Thread nD τ).loc main_arg5) := by
  show StableHlo.after hostOps0 (W0 m ρ c) (Proc.devRef .tc main_arg5) = _
  after_results
theorem W1_src (c : Dev nD) : W1 m ρ c (Proc.devRef .tc main_v1) = srcOf (m ((c : Thread nD τ).loc main_arg1)) := by
  show StableHlo.after hostOps0 (W0 m ρ c) (Proc.devRef .tc main_v1) = _
  after_results; rfl
theorem W1_dst (c : Dev nD) : W1 m ρ c (Proc.devRef .tc main_v3) = dstOf (m ((c : Thread nD τ).loc main_arg1)) := by
  show StableHlo.after hostOps0 (W0 m ρ c) (Proc.devRef .tc main_v3) = _
  after_results; rfl
theorem W1_deg (c : Dev nD) : W1 m ρ c (Proc.devRef .tc main_v7) = degreeOf (dstOf (m ((c : Thread nD τ).loc main_arg1))) := by
  show StableHlo.after hostOps0 (W0 m ρ c) (Proc.devRef .tc main_v7) = _
  after_results; rfl
theorem W1_bias (c : Dev nD) : W1 m ρ c (Proc.devRef .tc main_v8) = biasRow (m ((c : Thread nD τ).loc main_arg3)) := by
  show StableHlo.after hostOps0 (W0 m ρ c) (Proc.devRef .tc main_v8) = _
  after_results; rfl

/-! ## Across the first dense stage: its result array is what its write-backs leave; nothing else moves -/

theorem W2_t1 (c : Dev nD) : W2 m ρ c (Proc.devRef .tc main_v9) = (dat0 (V1 m ρ) c).arrAt 3 cfg0.N := W2_arr m ρ c 3
theorem W2_src (c : Dev nD) : W2 m ρ c (Proc.devRef .tc main_v1) = srcOf (m ((c : Thread nD τ).loc main_arg1)) :=
  (W2_of_ne m ρ c main_v1 (by decide)).trans (W1_src m ρ c)
theorem W2_dst (c : Dev nD) : W2 m ρ c (Proc.devRef .tc main_v3) = dstOf (m ((c : Thread nD τ).loc main_arg1)) :=
  (W2_of_ne m ρ c main_v3 (by decide)).trans (W1_dst m ρ c)
theorem W2_deg (c : Dev nD) : W2 m ρ c (Proc.devRef .tc main_v7) = degreeOf (dstOf (m ((c : Thread nD τ).loc main_arg1))) :=
  (W2_of_ne m ρ c main_v7 (by decide)).trans (W1_deg m ρ c)
theorem W2_w2 (c : Dev nD) : W2 m ρ c (Proc.devRef .tc main_arg4) = m ((c : Thread nD τ).loc main_arg4) :=
  (W2_of_ne m ρ c main_arg4 (by decide)).trans (W1_w2 m ρ c)
theorem W2_b2 (c : Dev nD) : W2 m ρ c (Proc.devRef .tc main_arg5) = m ((c : Thread nD τ).loc main_arg5) :=
  (W2_of_ne m ρ c main_arg5 (by decide)).trans (W1_b2 m ρ c)

/-! ## Before the second dense stage -/

theorem W3_agg (c : Dev nD) : W3 m ρ c (Proc.devRef .tc main_v19)
    = gatherSum (W2 m ρ c (Proc.devRef .tc main_v1)) (W2 m ρ c (Proc.devRef .tc main_v3)) (W2 m ρ c (Proc.devRef .tc main_v9)) := by
  show StableHlo.after hostOps1 (W2 m ρ c) (Proc.devRef .tc main_v19) = _
  after_results; rfl
theorem W3_deg (c : Dev nD) : W3 m ρ c (Proc.devRef .tc main_v7) = W2 m ρ c (Proc.devRef .tc main_v7) := by
  show StableHlo.after hostOps1 (W2 m ρ c) (Proc.devRef .tc main_v7) = _
  after_results
theorem W3_w2 (c : Dev nD) : W3 m ρ c (Proc.devRef .tc main_arg4) = W2 m ρ c (Proc.devRef .tc main_arg4) := by
  show StableHlo.after hostOps1 (W2 m ρ c) (Proc.devRef .tc main_arg4) = _
  after_results
theorem W3_bias (c : Dev nD) : W3 m ρ c (Proc.devRef .tc main_v20) = biasRow (W2 m ρ c (Proc.devRef .tc main_arg5)) := by
  show StableHlo.after hostOps1 (W2 m ρ c) (Proc.devRef .tc main_v20) = _
  after_results; rfl
theorem W3_src (c : Dev nD) : W3 m ρ c (Proc.devRef .tc main_v1) = W2 m ρ c (Proc.devRef .tc main_v1) := by
  show StableHlo.after hostOps1 (W2 m ρ c) (Proc.devRef .tc main_v1) = _
  after_results
theorem W3_dst (c : Dev nD) : W3 m ρ c (Proc.devRef .tc main_v3) = W2 m ρ c (Proc.devRef .tc main_v3) := by
  show StableHlo.after hostOps1 (W2 m ρ c) (Proc.devRef .tc main_v3) = _
  after_results

/-! ## Across the second dense stage -/

theorem W4_t2 (c : Dev nD) : W4 m ρ c (Proc.devRef .tc main_v21) = (dat1 (V3 m ρ) c).arrAt 4 cfg1.N := W4_arr m ρ c 4
theorem W4_src (c : Dev nD) : W4 m ρ c (Proc.devRef .tc main_v1) = srcOf (m ((c : Thread nD τ).loc main_arg1)) :=
  (W4_of_ne m ρ c main_v1 (by decide)).trans ((W3_src m ρ c).trans (W2_src m ρ c))
theorem W4_dst (c : Dev nD) : W4 m ρ c (Proc.devRef .tc main_v3) = dstOf (m ((c : Thread nD τ).loc main_arg1)) :=
  (W4_of_ne m ρ c main_v3 (by decide)).trans ((W3_dst m ρ c).trans (W2_dst m ρ c))
/-- The in-degree column is an INPUT of the second stage: the stage reads it and leaves it as it found it. -/
theorem W4_deg (c : Dev nD) : W4 m ρ c (Proc.devRef .tc main_v7) = degreeOf (dstOf (m ((c : Thread nD τ).loc main_arg1))) :=
  (W4_arr m ρ c 1).trans (((dat1 (V3 m ρ) c).arrAt_in 1 rfl _).trans ((A_eq1 (V3 m ρ) c 1).trans ((W3_deg m ρ c).trans (W2_deg m ρ c))))

/-! ## Before the last dense stage -/

theorem W5_agg (c : Dev nD) : W5 m ρ c (Proc.devRef .tc main_v31)
    = gatherSum (W4 m ρ c (Proc.devRef .tc main_v1)) (W4 m ρ c (Proc.devRef .tc main_v3)) (W4 m ρ c (Proc.devRef .tc main_v21)) := by
  show StableHlo.after hostOps2 (W4 m ρ c) (Proc.devRef .tc main_v31) = _
  after_results; rfl
theorem W5_deg (c : Dev nD) : W5 m ρ c (Proc.devRef .tc main_v7) = W4 m ρ c (Proc.devRef .tc main_v7) := by
  show StableHlo.after hostOps2 (W4 m ρ c) (Proc.devRef .tc main_v7) = _
  after_results

/-! ## The result -/

theorem W6_out (c : Dev nD) : W6 m ρ c (Proc.devRef .tc main_v32) = (dat2 (V5 m ρ) c).arrAt 2 cfg2.N := W6_arr m ρ c 2

end Cert.KernelIdeal.Layer

end
-- ==== Proof.Spec.lean ====
/-
  The mathematics both programs compute, stated once over whole arrays and read index by index on the
  extended reals. A node's feature row goes through two mean-aggregation layers. Three dense stages are
  stated here; the gather along edge sources and the sum over edge targets between them are the same host
  operations in both programs and are never opened.

  * `lin1 x W b` : row `p`, column `q` is `∑ k, x[p,k] · W[k,q] + b[0,q]` (128 terms).
  * `lin2 a n W b`: the aggregated sums `a` are first turned into means by dividing row `p` by
    `max n[p,0] 1` (an isolated node keeps its zero), clipped below at zero, and then go through the same
    affine map with 32 terms.
  * `mean a n`    : row `p` of `a` divided by `max n[p,0] 1`.
-/
import Idealize.ShloMosaic.PureOps.Ideal
import Idealize.ShloMosaic.Lib.ValueIdx

noncomputable section

namespace Cert.Spec

open Idealize.ShloMosaic Idealize.ShloMosaic.ValueIdx

/-- The float word of the number one, and of zero, as the programs spell them. -/
abbrev one : EReal := Ideal.ofBits .f32 0x3F800000#32
abbrev zero : EReal := Ideal.ofBits .f32 0x00000000#32

/-- The mean's denominator at row `p`: the in-degree, or one for a node no edge points to. -/
def denom (n : FVec Ideal ⟨2, ![100000, 1]⟩ .f32) (p : Fin 100000) : EReal :=
  max (n (ix2 p (0 : Fin 1))) one

/-- The first layer's affine map at row `p`, column `q`. -/
def lin1At (x : FVec Ideal ⟨2, ![100000, 128]⟩ .f32) (W : FVec Ideal ⟨2, ![128, 32]⟩ .f32)
    (b : FVec Ideal ⟨2, ![1, 32]⟩ .f32) (p : Fin 100000) (q : Fin 32) : EReal :=
  (∑ k : Fin 128, x (ix2 p k) * W (ix2 k q)) + b (ix2 (0 : Fin 1) q)

/-- The first layer's affine map as an array. -/
def lin1 (x : FVec Ideal ⟨2, ![100000, 128]⟩ .f32) (W : FVec Ideal ⟨2, ![128, 32]⟩ .f32)
    (b : FVec Ideal ⟨2, ![1, 32]⟩ .f32) : FVec Ideal ⟨2, ![100000, 32]⟩ .f32 :=
  fun i => lin1At x W b ⟨(i 0).val, idx2_lt0 i⟩ ⟨(i 1).val, idx2_lt1 i⟩

theorem lin1_ix2 (x : FVec Ideal ⟨2, ![100000, 128]⟩ .f32) (W : FVec Ideal ⟨2, ![128, 32]⟩ .f32)
    (b : FVec Ideal ⟨2, ![1, 32]⟩ .f32) (p : Fin 100000) (q : Fin 32) :
    lin1 x W b (ix2 p q) = lin1At x W b p q := rfl

/-- The hidden activation at row `p`, column `k`: the mean of the first layer's messages, clipped at zero. -/
def hiddenAt (a : FVec Ideal ⟨2, ![100000, 32]⟩ .f32) (n : FVec Ideal ⟨2, ![100000, 1]⟩ .f32)
    (p : Fin 100000) (k : Fin 32) : EReal :=
  max (Ideal.div (a (ix2 p k)) (denom n p)) zero

/-- The second layer's affine map of the hidden activation, at row `p`, column `q`. -/
def lin2At (a : FVec Ideal ⟨2, ![100000, 32]⟩ .f32) (n : FVec Ideal ⟨2, ![100000, 1]⟩ .f32)
    (W : FVec Ideal ⟨2, ![32, 32]⟩ .f32) (b : FVec Ideal ⟨2, ![1, 32]⟩ .f32) (p : Fin 100000) (q : Fin 32) : EReal :=
  (∑ k : Fin 32, hiddenAt a n p k * W (ix2 k q)) + b (ix2 (0 : Fin 1) q)

/-- The second layer's affine map as an array. -/
def lin2 (a : FVec Ideal ⟨2, ![100000, 32]⟩ .f32) (n : FVec Ideal ⟨2, ![100000, 1]⟩ .f32)
    (W : FVec Ideal ⟨2, ![32, 32]⟩ .f32) (b : FVec Ideal ⟨2, ![1, 32]⟩ .f32) : FVec Ideal ⟨2, ![100000, 32]⟩ .f32 :=
  fun i => lin2At a n W b ⟨(i 0).val, idx2_lt0 i⟩ ⟨(i 1).val, idx2_lt1 i⟩

theorem lin2_ix2 (a : FVec Ideal ⟨2, ![100000, 32]⟩ .f32) (n : FVec Ideal ⟨2, ![100000, 1]⟩ .f32)
    (W : FVec Ideal ⟨2, ![32, 32]⟩ .f32) (b : FVec Ideal ⟨2, ![1, 32]⟩ .f32) (p : Fin 100000) (q : Fin 32) :
    lin2 a n W b (ix2 p q) = lin2At a n W b p q := rfl

/-- The final mean at row `p`, column `q`. -/
def meanAt (a : FVec Ideal ⟨2, ![100000, 32]⟩ .f32) (n : FVec Ideal ⟨2, ![100000, 1]⟩ .f32)
    (p : Fin 100000) (q : Fin 32) : EReal :=
  Ideal.div (a (ix2 p q)) (denom n p)

/-- The final mean as an array. -/
def mean (a : FVec Ideal ⟨2, ![100000, 32]⟩ .f32) (n : FVec Ideal ⟨2, ![100000, 1]⟩ .f32) :
    FVec Ideal ⟨2, ![100000, 32]⟩ .f32 :=
  fun i => meanAt a n ⟨(i 0).val, idx2_lt0 i⟩ ⟨(i 1).val, idx2_lt1 i⟩

theorem mean_ix2 (a : FVec Ideal ⟨2, ![100000, 32]⟩ .f32) (n : FVec Ideal ⟨2, ![100000, 1]⟩ .f32)
    (p : Fin 100000) (q : Fin 32) : mean a n (ix2 p q) = meanAt a n p q := rfl

end Cert.Spec

end
-- ==== Proof.Network.lean ====
/-
  The whole two-layer computation as ONE function of the six arguments, on the extended reals:
  the first affine map of the node features, the messages gathered along the edges and summed at their
  targets, the mean of those sums clipped below at zero and sent through the second affine map, gathered
  and summed again, and the final mean. Both programs are proved to end with this array.
-/
import proofs.«131731_j71193377899389_1_alg».proof.Proof.Fold
import proofs.«131731_j71193377899389_1_alg».proof.Proof.Spec
import Idealize.ShloMosaic.Lib.Pipeline.Value

noncomputable section

namespace Cert.KernelIdeal.Layer

open Cert.KernelIdeal Cert.KernelIdeal.Gen Idealize.ShloMosaic Idealize.ShloMosaic.ValueIdx

/-- The result array as a function of the node features `x`, the edge list `e`, and the two layers' weights and
    biases. -/
def network (x : Vec Ideal S100000x128 .f32) (e : Vec Ideal S2x1600000 .i32) (w1 : Vec Ideal S128x32 .f32) (b1 : Vec Ideal S32 .f32)
    (w2 : Vec Ideal S32x32 .f32) (b2 : Vec Ideal S32 .f32) : Vec Ideal S100000x32 .f32 :=
  Cert.Spec.mean
    (gatherSum (srcOf e) (dstOf e)
      (Cert.Spec.lin2 (gatherSum (srcOf e) (dstOf e) (Cert.Spec.lin1 x w1 (biasRow b1))) (degreeOf (dstOf e)) w2 (biasRow b2)))
    (degreeOf (dstOf e))

/-- A bias vector laid out as a one-row matrix holds entry `q` of the vector at row 0, column `q`: both sit
    at position `q` of the row-major order. -/
theorem biasRow_ix2 (b : Vec Ideal S32 .f32) (q : Fin 32) : biasRow (F := Ideal) b (ix2 (0 : Fin 1) q) = b (ix1 q) := by
  unfold biasRow
  exact shapeCast_apply b shapeCasts_S32_S1x32 (ix2 (0 : Fin 1) q) (ix1 q)
    (by rewrite [Shape.rowMajor_val_two, Shape.rowMajor_val_one]; show q.val = 0 * 32 + q.val; omega)

end Cert.KernelIdeal.Layer

end
-- ==== Proof.Region0.lean ====
import proofs.«131731_j71193377899389_1_alg».proof.Proof.Gen.KernelIdeal.Frame
import proofs.«131731_j71193377899389_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's arithmetic at a row and a column of a block -/

/-- The two zero offsets of a whole-buffer access, as the constant function. -/
theorem zero_off : (![0, 0] : Fin 2 → Nat) = fun _ => 0 := funext fun a => by fin_cases a <;> rfl

/-- The left operand of the product is read at the output's row. -/
theorem dot_lhs_row (i : S20000x32.Idx) (s : dot_S20000x128_S128x32_S20000x32_1_0_0_1_n_n.contr.Idx) :
    (dot_S20000x128_S128x32_S20000x32_1_0_0_1_n_n.lhsIdx i s 0).val = (i 0).val := by
  unfold DotDims.lhsIdx
  rw [dif_neg (show ¬(0 : Fin S20000x128.rank) ∈ dot_S20000x128_S128x32_S20000x32_1_0_0_1_n_n.lhsBatch by decide),
    dif_pos (show (0 : Fin S20000x128.rank) ∈ dot_S20000x128_S128x32_S20000x32_1_0_0_1_n_n.lhsNonContracting by decide)]
  rfl

/-- The left operand's column is the summation index. -/
theorem dot_lhs_col (i : S20000x32.Idx) (s : dot_S20000x128_S128x32_S20000x32_1_0_0_1_n_n.contr.Idx) :
    (dot_S20000x128_S128x32_S20000x32_1_0_0_1_n_n.lhsIdx i s 1).val = (s ⟨0, by decide⟩).val :=
  dot_S20000x128_S128x32_S20000x32_1_0_0_1_n_n.lhsIdx_val_of_single rfl i s

/-- The right operand's row is the summation index. -/
theorem dot_rhs_row (i : S20000x32.Idx) (s : dot_S20000x128_S128x32_S20000x32_1_0_0_1_n_n.contr.Idx) :
    (dot_S20000x128_S128x32_S20000x32_1_0_0_1_n_n.rhsIdx i s 0).val = (s ⟨0, by decide⟩).val :=
  dot_S20000x128_S128x32_S20000x32_1_0_0_1_n_n.rhsIdx_val_of_single rfl i s

/-- The right operand is read at the output's column. -/
theorem dot_rhs_col (i : S20000x32.Idx) (s : dot_S20000x128_S128x32_S20000x32_1_0_0_1_n_n.contr.Idx) :
    (dot_S20000x128_S128x32_S20000x32_1_0_0_1_n_n.rhsIdx i s 1).val = (i 1).val := by
  unfold DotDims.rhsIdx
  rw [dif_neg (show ¬(1 : Fin S128x32.rank) ∈ dot_S20000x128_S128x32_S20000x32_1_0_0_1_n_n.rhsBatch by decide),
    dif_pos (show (1 : Fin S128x32.rank) ∈ dot_S20000x128_S128x32_S20000x32_1_0_0_1_n_n.rhsNonContracting by decide)]
  rfl

/-- The product of a [20000,128] block and a [128,32] matrix from a zero accumulator, at row `r` and column `q`:
    the sum over the 128 inner positions of the products of the entries. -/
theorem product_at (a : FVec Ideal S20000x128 .bf16) (b : FVec Ideal S128x32 .bf16) (r : Fin 20000) (q : Fin 32) :
    matmul dot_S20000x128_S128x32_S20000x32_1_0_0_1_n_n none a b (constant S20000x32 .f32 0x00000000#32) (ix2 r q)
      = ∑ k : Fin 128, a (ix2 r k) * b (ix2 k q) := by
  simp only [matmul]
  rw [Ideal.matmul_constant_zero_apply,
    ← Equiv.sum_comp (contrEquiv1 dot_S20000x128_S128x32_S20000x32_1_0_0_1_n_n 128 rfl rfl).symm]
  refine Finset.sum_congr rfl fun k _ => ?_
  have hk := contrEquiv1_symm_val dot_S20000x128_S128x32_S20000x32_1_0_0_1_n_n 128 rfl rfl k
  have el : dot_S20000x128_S128x32_S20000x32_1_0_0_1_n_n.lhsIdx (ix2 r q)
      ((contrEquiv1 dot_S20000x128_S128x32_S20000x32_1_0_0_1_n_n 128 rfl rfl).symm k) = ix2 r k :=
    funext fun x => Fin.ext (by
      match x with
      | ⟨0, _⟩ => exact dot_lhs_row _ _
      | ⟨1, _⟩ => exact (dot_lhs_col _ _).trans hk)
  have er : dot_S20000x128_S128x32_S20000x32_1_0_0_1_n_n.rhsIdx (ix2 r q)
      ((contrEquiv1 dot_S20000x128_S128x32_S20000x32_1_0_0_1_n_n 128 rfl rfl).symm k) = ix2 k q :=
    funext fun x => Fin.ext (by
      match x with
      | ⟨0, _⟩ => exact (dot_rhs_row _ _).trans hk
      | ⟨1, _⟩ => exact dot_rhs_col _ _)
  rw [el, er]

/-- The bias row spread over the 20000 rows of a block, at row `r` and column `q`: the bias at column `q`. -/
theorem bias_at (x2 : Vec Ideal S1x32 .f32) (r : Fin 20000) (q : Fin 32) :
    broadcastTo S20000x32 (shapeCast S1x32 x2 shapeCasts_S1x32_S1x32) broadcasts_S1x32_S20000x32 (ix2 r q)
      = x2 (ix2 (0 : Fin 1) q) := by
  refine (broadcastTo_apply _ _ (ix2 r q) (ix2 (0 : Fin 1) q) ?_).trans
    (congrFun (shapeCast_self x2 shapeCasts_S1x32_S1x32) _)
  intro a
  match a with
  | ⟨0, _⟩ => exact (if_pos rfl).symm
  | ⟨1, _⟩ => exact (if_neg (show ¬ (32 : Nat) = 1 by decide)).symm

/-- THE BODY AT A ROW AND A COLUMN: the affine map of the block's row `r`, at column `q`. -/
theorem body_at (x0 : Vec Ideal S20000x128 .f32) (x1 : Vec Ideal S128x32 .f32) (x2 : Vec Ideal S1x32 .f32)
    (r : Fin 20000) (q : Fin 32) :
    k0_pay1 x0 x1 x2 (ix2 r q) = (∑ k : Fin 128, x0 (ix2 r k) * x1 (ix2 k q)) + x2 (ix2 (0 : Fin 1) q) := by
  unfold k0_pay1
  exact congrArg₂ (· + ·) (product_at (truncf .bf16 x0 bitsLt_bf16_f32) (truncf .bf16 x1 bitsLt_bf16_f32) r q)
    (bias_at x2 r q)

/-! ## Where each window's block sits in its array -/

/-- The index maps over the five grid points: the block of `x` moves with the output's block down the rows, point
    `t` at row-block `t`; no window moves along the columns; the weight matrix and the bias row are read whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val ≤ 4 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val ≤ 4)

/-- Row `r` of point `t`'s block is row `20000 t + r` of the array. -/
def rowOf (t : Fin cfg0.N) (r : Fin 20000) : Fin 100000 :=
  ⟨t.val * 20000 + r.val, by have h := (index_facts t).2.2.2.2.2.2.2.2; have hr := r.isLt; omega⟩

/-- Point `t`'s block of `x`, at row `r` and column `k`, is the array at row `20000 t + r`. -/
theorem x_block_at (c : Dev nD) (t : Fin cfg0.N) (r : Fin 20000) (k : Fin 128) :
    iblk0 V c 0 t (ix2 r k) = V c main_arg0 (ix2 (rowOf t r) k) := by
  unfold iblk0
  show V c main_arg0 (((cfg0.win 0).blk t).view.emb (ix2 r k)) = _
  refine congrArg (V c main_arg0) (funext fun a => Fin.ext ?_)
  obtain ⟨e0, e1, -⟩ := index_facts t
  match a with
  | ⟨0, _⟩ => show win0_0.index t (0 : Fin 2) * 20000 + 1 * r.val = t.val * 20000 + r.val; omega
  | ⟨1, _⟩ => show win0_0.index t (1 : Fin 2) * 128 + 1 * k.val = k.val; omega

/-- Every point's block of the weight matrix is the whole matrix. -/
theorem w_block_at (c : Dev nD) (t : Fin cfg0.N) (k : Fin 128) (q : Fin 32) :
    iblk0 V c 1 t (ix2 k q) = V c main_arg2 (ix2 k q) := by
  unfold iblk0
  show V c main_arg2 (((cfg0.win 1).blk t).view.emb (ix2 k q)) = _
  refine congrArg (V c main_arg2) (funext fun a => Fin.ext ?_)
  obtain ⟨-, -, e0, e1, -⟩ := index_facts t
  match a with
  | ⟨0, _⟩ => show win0_1.index t (0 : Fin 2) * 128 + 1 * k.val = k.val; omega
  | ⟨1, _⟩ => show win0_1.index t (1 : Fin 2) * 32 + 1 * q.val = q.val; omega

/-- Every point's block of the bias is the whole row. -/
theorem b_block_at (c : Dev nD) (t : Fin cfg0.N) (q : Fin 32) :
    iblk0 V c 2 t (ix2 (0 : Fin 1) q) = V c main_v8 (ix2 (0 : Fin 1) q) := by
  unfold iblk0
  show V c main_v8 (((cfg0.win 2).blk t).view.emb (ix2 (0 : Fin 1) q)) = _
  refine congrArg (V c main_v8) (funext fun a => Fin.ext ?_)
  obtain ⟨-, -, -, -, e0, e1, -⟩ := index_facts t
  match a with
  | ⟨0, _⟩ => show win0_2.index t (0 : Fin 2) * 1 + 1 * (0 : Fin 1).val = (0 : Fin 1).val; omega
  | ⟨1, _⟩ => show win0_2.index t (1 : Fin 2) * 32 + 1 * q.val = q.val; omega

/-- Row `r`, column `q` of point `t`'s output block is row `20000 t + r`, column `q` of the output array. -/
theorem out_index_at (t : Fin cfg0.N) (r : Fin 20000) (q : Fin 32) :
    ((cfg0.win 3).blk t).view.emb (ix2 r q) = ix2 (rowOf t r) q := by
  refine funext fun a => Fin.ext ?_
  obtain ⟨-, -, -, -, -, -, e0, e1, -⟩ := index_facts t
  match a with
  | ⟨0, _⟩ => show win0_3.index t (0 : Fin 2) * 20000 + 1 * r.val = t.val * 20000 + r.val; omega
  | ⟨1, _⟩ => show win0_3.index t (1 : Fin 2) * 32 + 1 * q.val = q.val; omega

/-! ## What a point writes back, and the whole array -/

/-- WHAT POINT `t` WRITES BACK is block `t` of the first layer's affine map of the three arrays. -/
theorem flushed_eq (c : Dev nD) (t : Fin cfg0.N) :
    (dat0 (F := Ideal) V c).flushed 3 t
      = ((cfg0.win 3).blk t).view.read (Elt Ideal) (Cert.Spec.lin1 (V c main_arg0) (V c main_arg2) (V c main_v8)) := by
  show (cfg0.win 3).cut (grid0.coords t) ((dat0 V c).after 3 t) = _
  rw [after0_3]
  unfold out0_3
  rw [View.canon_unit_zero zero_off]
  simp only [View.ld_unit_zero (S := S20000x128) zero_off, View.ld_unit_zero (S := S128x32) zero_off,
    View.ld_unit_zero (S := S1x32) zero_off]
  funext j
  obtain ⟨r, q, rfl⟩ : ∃ (r : Fin 20000) (q : Fin 32), j = ix2 r q := ⟨j 0, j 1, eq_ix2 j⟩
  show k0_pay1 (iblk0 V c 0 t) (iblk0 V c 1 t) (iblk0 V c 2 t) (ix2 r q)
    = Cert.Spec.lin1 (V c main_arg0) (V c main_arg2) (V c main_v8) (((cfg0.win 3).blk t).view.emb (ix2 r q))
  rw [out_index_at t r q, Cert.Spec.lin1_ix2]
  refine (body_at (iblk0 V c 0 t) (iblk0 V c 1 t) (iblk0 V c 2 t) r q).trans ?_
  unfold Cert.Spec.lin1At
  exact congrArg₂ (· + ·)
    (Finset.sum_congr rfl fun k _ => congrArg₂ (· * ·) (x_block_at V c t r k) (w_block_at V c t k q))
    (b_block_at V c t q)

/-- An index of the output array is in point `t`'s block iff each coordinate is in the block's range on its axis. -/
theorem mem_block (t : Fin cfg0.N) (i : S100000x32.Idx) :
    i ∈ ((cfg0.win 3).blk t).view.set
      ↔ ∀ a : Fin 2, win0_3.index t a * S20000x32.size a ≤ (i a).val
          ∧ (i a).val < win0_3.index t a * S20000x32.size a + S20000x32.size a := by
  show i ∈ ((View.whole main_v9).slice (win0_3.rect t)).set ↔ _
  rw [View.set_slice_whole, Rect.mem_set_unit]
  exact Iff.rfl

/-- The five blocks of 20000 rows fill the 100000 rows: row `p` lies in the block of point `p / 20000`, and every
    point writes its block back. -/
theorem covered (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  let t : Fin cfg0.N := ⟨(i 0).val / 20000, lt_of_lt_of_eq (by omega : (i 0).val / 20000 < 5) N_0.symm⟩
  obtain ⟨-, -, -, -, -, -, e0, e1, -⟩ := index_facts t
  have ht : t.val = (i 0).val / 20000 := rfl
  refine ⟨t, flush0_3 t, ?_⟩
  rw [mem_block]
  intro a
  match a with
  | ⟨0, _⟩ =>
    show win0_3.index t (0 : Fin 2) * 20000 ≤ (i 0).val ∧ (i 0).val < win0_3.index t (0 : Fin 2) * 20000 + 20000
    omega
  | ⟨1, _⟩ =>
    show win0_3.index t (1 : Fin 2) * 32 ≤ (i 1).val ∧ (i 1).val < win0_3.index t (1 : Fin 2) * 32 + 32
    omega

/-- REGION 0: after its five points the output array is the first layer's affine map of the node features, the
    weight matrix and the bias row, as whole arrays. -/
theorem region0_array (c : Dev nD) :
    (dat0 (F := Ideal) V c).arrAt 3 cfg0.N = Cert.Spec.lin1 (V c main_arg0) (V c main_arg2) (V c main_v8) :=
  (dat0 (F := Ideal) V c).arrAt_eq_of_cover 3 _ (fun t _ => flushed_eq V c t) covered

end Cert.KernelIdeal.Layer

end
-- ==== Proof.Region1.lean ====
import proofs.«131731_j71193377899389_1_alg».proof.Proof.Gen.KernelIdeal.Frame
import proofs.«131731_j71193377899389_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's arithmetic at a row and a column of a block -/

/-- The left operand's index of the 32-term product: its row is the output's row. -/
theorem r1_lhs_0 (i : S20000x32.Idx) (q : dot_S20000x32_S32x32_S20000x32_1_0_0_1_n_n.contr.Idx) :
    (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide),
    dif_pos (show (0 : Fin S20000x32.rank) ∈ dot_S20000x32_S32x32_S20000x32_1_0_0_1_n_n.lhsNonContracting by decide)]
  rfl

/-- Its column is the summation index. -/
theorem r1_lhs_1 (i : S20000x32.Idx) (q : dot_S20000x32_S32x32_S20000x32_1_0_0_1_n_n.contr.Idx) :
    (dot_S20000x32_S32x32_S20000x32_1_0_0_1_n_n.lhsIdx i q 1).val = (q ⟨0, by decide⟩).val :=
  dot_S20000x32_S32x32_S20000x32_1_0_0_1_n_n.lhsIdx_val_of_single rfl i q

/-- The right operand's row is the summation index. -/
theorem r1_rhs_0 (i : S20000x32.Idx) (q : dot_S20000x32_S32x32_S20000x32_1_0_0_1_n_n.contr.Idx) :
    (dot_S20000x32_S32x32_S20000x32_1_0_0_1_n_n.rhsIdx i q 0).val = (q ⟨0, by decide⟩).val :=
  dot_S20000x32_S32x32_S20000x32_1_0_0_1_n_n.rhsIdx_val_of_single rfl i q

/-- Its column is the output's column. -/
theorem r1_rhs_1 (i : S20000x32.Idx) (q : dot_S20000x32_S32x32_S20000x32_1_0_0_1_n_n.contr.Idx) :
    (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide),
    dif_pos (show (1 : Fin S32x32.rank) ∈ dot_S20000x32_S32x32_S20000x32_1_0_0_1_n_n.rhsNonContracting by decide)]
  rfl

/-- The product of a block of 20000 rows with the 32 by 32 weights, started from zero, at row `r` and column `q`:
    the 32-term sum over the shared axis. -/
theorem r1_matmul_at (h : FVec Ideal S20000x32 .bf16) (w : FVec Ideal S32x32 .bf16) (r : Fin 20000) (q : Fin 32) :
    matmul dot_S20000x32_S32x32_S20000x32_1_0_0_1_n_n none h w (constant S20000x32 .f32 0x00000000#32) (ix2 r q)
      = ∑ k : Fin 32, h (ix2 r k) * w (ix2 k q) := by
  simp only [matmul]
  rw [Ideal.matmul_constant_zero_apply, ← Equiv.sum_comp (contrEquiv1 dot_S20000x32_S32x32_S20000x32_1_0_0_1_n_n 32 rfl rfl).symm]
  refine Finset.sum_congr rfl fun k _ => ?_
  have hk := contrEquiv1_symm_val dot_S20000x32_S32x32_S20000x32_1_0_0_1_n_n 32 rfl rfl k
  have el : dot_S20000x32_S32x32_S20000x32_1_0_0_1_n_n.lhsIdx (ix2 r q) ((contrEquiv1 dot_S20000x32_S32x32_S20000x32_1_0_0_1_n_n 32 rfl rfl).symm k) = ix2 r k :=
    funext fun a => Fin.ext (by
      match a with
      | ⟨0, _⟩ => exact r1_lhs_0 _ _
      | ⟨1, _⟩ => exact (r1_lhs_1 _ _).trans hk)
  have er : dot_S20000x32_S32x32_S20000x32_1_0_0_1_n_n.rhsIdx (ix2 r q) ((contrEquiv1 dot_S20000x32_S32x32_S20000x32_1_0_0_1_n_n 32 rfl rfl).symm k) = ix2 k q :=
    funext fun a => Fin.ext (by
      match a with
      | ⟨0, _⟩ => exact (r1_rhs_0 _ _).trans hk
      | ⟨1, _⟩ => exact r1_rhs_1 _ _)
  rw [el, er]

/-- The count column spread over the 32 feature columns reads, at row `r`, the count's row `r`. -/
theorem r1_bcast_col (y : S20000x1.Idx → EReal) (hb : S20000x1.Broadcasts S20000x32) (r : Fin 20000) (k : Fin 32) :
    broadcastTo S20000x32 y hb (ix2 r k) = y (ix2 r (0 : Fin 1)) :=
  broadcastTo_apply y hb (ix2 r k) (ix2 r (0 : Fin 1)) (fun a => by
    match a with
    | ⟨0, _⟩ => show r.val = if (20000 : Nat) = 1 then 0 else r.val; exact (if_neg (by decide)).symm
    | ⟨1, _⟩ => show (0 : Nat) = if (1 : Nat) = 1 then 0 else k.val; exact (if_pos rfl).symm)

/-- The bias row spread over the 20000 rows reads, at column `q`, the bias's column `q`. -/
theorem r1_bcast_row (y : S1x32.Idx → EReal) (hb : S1x32.Broadcasts S20000x32) (r : Fin 20000) (q : Fin 32) :
    broadcastTo S20000x32 y hb (ix2 r q) = y (ix2 (0 : Fin 1) q) :=
  broadcastTo_apply y hb (ix2 r q) (ix2 (0 : Fin 1) q) (fun a => by
    match a with
    | ⟨0, _⟩ => show (0 : Nat) = if (1 : Nat) = 1 then 0 else r.val; exact (if_pos rfl).symm
    | ⟨1, _⟩ => show q.val = if (32 : Nat) = 1 then 0 else q.val; exact (if_neg (by decide)).symm)

/-- THE BODY'S VALUE at row `r`, column `q` of a block: the sums block's row divided by the larger of its count and
    one, clipped below at zero, through the affine map with 32 terms. -/
theorem r1_pay_at (x0 : Vec Ideal S20000x32 .f32) (x1 : Vec Ideal S20000x1 .f32) (x2 : Vec Ideal S32x32 .f32)
    (x3 : Vec Ideal S1x32 .f32) (r : Fin 20000) (q : Fin 32) :
    k1_pay1 x0 x1 x2 x3 (ix2 r q)
      = (∑ k : Fin 32, max (Ideal.div (x0 (ix2 r k)) (max (x1 (ix2 r (0 : Fin 1))) Cert.Spec.one)) Cert.Spec.zero * x2 (ix2 k q))
        + x3 (ix2 (0 : Fin 1) q) := by
  unfold k1_pay1
  refine (addf_apply _ _ _).trans ?_
  refine congrArg₂ (· + ·) ?_ ?_
  · refine (r1_matmul_at _ _ r q).trans ?_
    refine Finset.sum_congr rfl fun k _ => ?_
    refine congrArg₂ (· * ·) ?_ rfl
    refine (truncf_apply (ψ := .bf16) _ bitsLt_bf16_f32 _).trans ?_
    refine (maximumf_apply _ _ _).trans ?_
    refine congrArg₂ max ?_ rfl
    refine (divf_apply _ _ _).trans ?_
    refine congrArg₂ Ideal.div ?_ ?_
    · exact congrFun (shapeCast_self x0 _) _
    · refine (r1_bcast_col _ _ r k).trans ?_
      refine (maximumf_apply _ _ _).trans ?_
      refine congrArg₂ max ?_ rfl
      exact congrFun (shapeCast_self x1 _) _
  · refine (r1_bcast_row _ _ r q).trans ?_
    exact congrFun (shapeCast_self x3 _) _

/-! ## Where each window's block sits in its array -/

theorem r1_hz : (![0, 0] : Fin 2 → Nat) = fun _ => 0 := funext fun a => by fin_cases a <;> rfl

/-- The printed index maps, decided over the 5 grid points: the two row-tiled inputs and the output take the point's
    own row block and column block 0; the weights and the bias row are read whole at every point. -/
theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val ≤ 4 :=
  (by decide +kernel : ∀ t : Fin grid1.N, _)

/-- Row `r` of the block of point `t` is row `t * 20000 + r` of the array of 100000 rows. -/
theorem r1_row_lt (t : Fin cfg1.N) (r : Fin 20000) : t.val * 20000 + r.val < 100000 := by
  have h := (r1_idx t).2.2.2.2.2.2.2.2.2.2
  have hr := r.isLt
  omega

/-- The block of aggregated sums that point `t` reads, at row `r` and column `k`. -/
theorem r1_blk0_at (c : Dev nD) (t : Fin cfg1.N) (r : Fin 20000) (k : Fin 32) :
    (iblk1 V c 0 t : Vec Ideal S20000x32 .f32) (ix2 r k)
      = (V c main_v19 : FVec Ideal ⟨2, ![100000, 32]⟩ .f32) (ix2 ⟨t.val * 20000 + r.val, r1_row_lt t r⟩ k) := by
  unfold iblk1
  show (V c main_v19 : FVec Ideal ⟨2, ![100000, 32]⟩ .f32) (((cfg1.win 0).blk t).view.emb (ix2 r k)) = _
  refine congrArg (V c main_v19 : FVec Ideal ⟨2, ![100000, 32]⟩ .f32) (funext fun a => Fin.ext ?_)
  obtain ⟨e0, e1, -⟩ := r1_idx t
  match a with
  | ⟨0, _⟩ => show win1_0.index t (0 : Fin 2) * 20000 + 1 * r.val = t.val * 20000 + r.val; omega
  | ⟨1, _⟩ => show win1_0.index t (1 : Fin 2) * 32 + 1 * k.val = k.val; omega

/-- The block of in-degree counts that point `t` reads, at row `r`. -/
theorem r1_blk1_at (c : Dev nD) (t : Fin cfg1.N) (r : Fin 20000) :
    (iblk1 V c 1 t : Vec Ideal S20000x1 .f32) (ix2 r (0 : Fin 1))
      = (V c main_v7 : FVec Ideal ⟨2, ![100000, 1]⟩ .f32) (ix2 ⟨t.val * 20000 + r.val, r1_row_lt t r⟩ (0 : Fin 1)) := by
  unfold iblk1
  show (V c main_v7 : FVec Ideal ⟨2, ![100000, 1]⟩ .f32) (((cfg1.win 1).blk t).view.emb (ix2 r (0 : Fin 1))) = _
  refine congrArg (V c main_v7 : FVec Ideal ⟨2, ![100000, 1]⟩ .f32) (funext fun a => Fin.ext ?_)
  obtain ⟨-, -, e0, e1, -⟩ := r1_idx t
  match a with
  | ⟨0, _⟩ => show win1_1.index t (0 : Fin 2) * 20000 + 1 * r.val = t.val * 20000 + r.val; omega
  | ⟨1, _⟩ => show win1_1.index t (1 : Fin 2) * 1 + 1 * 0 = 0; omega

/-- The weights, read whole at every point. -/
theorem r1_blk2_at (c : Dev nD) (t : Fin cfg1.N) (k q : Fin 32) :
    (iblk1 V c 2 t : Vec Ideal S32x32 .f32) (ix2 k q) = (V c main_arg4 : FVec Ideal ⟨2, ![32, 32]⟩ .f32) (ix2 k q) := by
  unfold iblk1
  show (V c main_arg4 : FVec Ideal ⟨2, ![32, 32]⟩ .f32) (((cfg1.win 2).blk t).view.emb (ix2 k q)) = _
  refine congrArg (V c main_arg4 : FVec Ideal ⟨2, ![32, 32]⟩ .f32) (funext fun a => Fin.ext ?_)
  obtain ⟨-, -, -, -, e0, e1, -⟩ := r1_idx t
  match a with
  | ⟨0, _⟩ => show win1_2.index t (0 : Fin 2) * 32 + 1 * k.val = k.val; omega
  | ⟨1, _⟩ => show win1_2.index t (1 : Fin 2) * 32 + 1 * q.val = q.val; omega

/-- The bias row, read whole at every point. -/
theorem r1_blk3_at (c : Dev nD) (t : Fin cfg1.N) (q : Fin 32) :
    (iblk1 V c 3 t : Vec Ideal S1x32 .f32) (ix2 (0 : Fin 1) q) = (V c main_v20 : FVec Ideal ⟨2, ![1, 32]⟩ .f32) (ix2 (0 : Fin 1) q) := by
  unfold iblk1
  show (V c main_v20 : FVec Ideal ⟨2, ![1, 32]⟩ .f32) (((cfg1.win 3).blk t).view.emb (ix2 (0 : Fin 1) q)) = _
  refine congrArg (V c main_v20 : FVec Ideal ⟨2, ![1, 32]⟩ .f32) (funext fun a => Fin.ext ?_)
  obtain ⟨-, -, -, -, -, -, e0, e1, -⟩ := r1_idx t
  match a with
  | ⟨0, _⟩ => show win1_3.index t (0 : Fin 2) * 1 + 1 * 0 = 0; omega
  | ⟨1, _⟩ => show win1_3.index t (1 : Fin 2) * 32 + 1 * q.val = q.val; omega

/-- Row `r`, column `q` of the output block of point `t` is row `t * 20000 + r`, column `q` of the output array. -/
theorem r1_out_emb (t : Fin cfg1.N) (r : Fin 20000) (q : Fin 32) :
    (((cfg1.win 4).blk t).view.emb (ix2 r q) : (⟨2, ![100000, 32]⟩ : Shape).Idx)
      = ix2 ⟨t.val * 20000 + r.val, r1_row_lt t r⟩ q := by
  refine funext fun a => Fin.ext ?_
  obtain ⟨-, -, -, -, -, -, -, -, e0, e1, -⟩ := r1_idx t
  match a with
  | ⟨0, _⟩ => show win1_4.index t (0 : Fin 2) * 20000 + 1 * r.val = t.val * 20000 + r.val; omega
  | ⟨1, _⟩ => show win1_4.index t (1 : Fin 2) * 32 + 1 * q.val = q.val; omega

/-! ## What each point writes back, and the whole array -/

/-- WHAT POINT `t` WRITES BACK is block `t` of the second layer's affine map of the arrays the region reads. -/
theorem r1_flushed_eq (c : Dev nD) (t : Fin cfg1.N) :
    (dat1 V c).flushed 4 t = ((cfg1.win 4).blk t).view.read (Elt Ideal)
      (Cert.Spec.lin2 (V c main_v19) (V c main_v7) (V c main_arg4) (V c main_v20)) := by
  show (cfg1.win 4).cut (grid1.coords t) ((dat1 V c).after 4 t) = _
  rw [after1_4]
  unfold out1_4
  rw [View.canon_unit_zero r1_hz]
  simp only [View.ld_unit_zero (S := S20000x32) r1_hz, View.ld_unit_zero (S := S20000x1) r1_hz,
    View.ld_unit_zero (S := S32x32) r1_hz, View.ld_unit_zero (S := S1x32) r1_hz]
  funext j
  obtain ⟨r, q, rfl⟩ : ∃ (r : Fin 20000) (q : Fin 32), j = ix2 r q := ⟨j 0, j 1, eq_ix2 j⟩
  show k1_pay1 (iblk1 V c 0 t) (iblk1 V c 1 t) (iblk1 V c 2 t) (iblk1 V c 3 t) (ix2 r q)
    = Cert.Spec.lin2 (V c main_v19) (V c main_v7) (V c main_arg4) (V c main_v20) (((cfg1.win 4).blk t).view.emb (ix2 r q))
  refine (r1_pay_at (iblk1 V c 0 t) (iblk1 V c 1 t) (iblk1 V c 2 t) (iblk1 V c 3 t) r q).trans ?_
  refine Eq.trans ?_ (congrArg (Cert.Spec.lin2 (V c main_v19) (V c main_v7) (V c main_arg4) (V c main_v20)) (r1_out_emb t r q)).symm
  refine Eq.trans ?_ (Cert.Spec.lin2_ix2 (V c main_v19) (V c main_v7) (V c main_arg4) (V c main_v20) ⟨t.val * 20000 + r.val, r1_row_lt t r⟩ q).symm
  unfold Cert.Spec.lin2At Cert.Spec.hiddenAt Cert.Spec.denom
  refine congrArg₂ (· + ·) (Finset.sum_congr rfl fun k _ => ?_) (r1_blk3_at V c t q)
  exact congrArg₂ (· * ·)
    (congrArg₂ max (congrArg₂ Ideal.div (r1_blk0_at V c t r k) (congrArg₂ max (r1_blk1_at V c t r) rfl)) rfl)
    (r1_blk2_at V c t k q)

/-- An index of the output array is in point `t`'s block iff each coordinate is in the block's range on its axis. -/
theorem r1_mem_blk (t : Fin cfg1.N) (i : S100000x32.Idx) :
    i ∈ ((cfg1.win 4).blk t).view.set ↔ ∀ a : Fin 2, win1_4.index t a * S20000x32.size a ≤ (i a).val
      ∧ (i a).val < win1_4.index t a * S20000x32.size a + S20000x32.size a := by
  show i ∈ ((View.whole main_v21).slice (win1_4.rect t)).set ↔ _
  rw [View.set_slice_whole, Rect.mem_set_unit]
  exact Iff.rfl

/-- Every row of the output array lies in the block of the point numbered by the row's quotient by 20000, and every
    point writes its block back. -/
theorem r1_cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ : ∃ t : Fin cfg1.N, t.val = (i 0).val / 20000 :=
    ⟨⟨(i 0).val / 20000, by show (i 0).val / 20000 < grid1.N; rw [N_1]; omega⟩, rfl⟩
  refine ⟨t, flush1_4 t, ?_⟩
  rw [r1_mem_blk]
  obtain ⟨-, -, -, -, -, -, -, -, e0, e1, -⟩ := r1_idx t
  intro a
  match a with
  | ⟨0, _⟩ =>
    show win1_4.index t (0 : Fin 2) * 20000 ≤ (i 0).val ∧ (i 0).val < win1_4.index t (0 : Fin 2) * 20000 + 20000
    omega
  | ⟨1, _⟩ =>
    show win1_4.index t (1 : Fin 2) * 32 ≤ (i 1).val ∧ (i 1).val < win1_4.index t (1 : Fin 2) * 32 + 32
    omega

/-- THE OUTPUT ARRAY after the region's 5 points is the second layer's affine map of the arrays the region reads. -/
theorem region1_array (c : Dev nD) :
    (dat1 (F := Ideal) V c).arrAt 4 cfg1.N = Cert.Spec.lin2 (V c main_v19) (V c main_v7) (V c main_arg4) (V c main_v20) :=
  (dat1 V c).arrAt_eq_of_cover 4 _ (fun t _ => r1_flushed_eq V c t) r1_cover

end Cert.KernelIdeal.Layer

end
-- ==== Proof.Region2.lean ====
import proofs.«131731_j71193377899389_1_alg».proof.Proof.Gen.KernelIdeal.Frame
import proofs.«131731_j71193377899389_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! # Region 2: the mean of the aggregated rows

Each of the five grid points reads a block of 20000 rows of the aggregated sums and of the in-degree column,
divides row by row by the larger of the in-degree and one, and writes the block of 20000 rows back. The five
blocks tile the 100000 rows, so the array left is the mean of the specification at every index. -/

/-- The all-zero offset of a whole-buffer access. -/
theorem zero_offset : (![0, 0] : Fin 2 → Nat) = fun _ => 0 := funext fun a => by fin_cases a <;> rfl

/-- The three index maps, decided over the five grid points: each window's row-block index is the point's own
    number and its column-block index is zero. -/
theorem block_index_eq_point : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 ∧ t.val < 5 :=
  (by decide +kernel : ∀ t : Fin grid2.N, _)

/-- A column of 20000 entries spread over 32 columns, read at row `r`, column `q`, is the column's entry at row `r`. -/
theorem column_spread_apply (d : Vec Ideal S20000x1 .f32) (r : Fin 20000) (q : Fin 32) :
    broadcastTo S20000x32 d broadcasts_S20000x1_S20000x32 (ix2 r q) = d (ix2 r (0 : Fin 1)) :=
  broadcastTo_apply d _ (ix2 r q) (ix2 r (0 : Fin 1)) (fun a => by
    match a with
    | ⟨0, _⟩ => show r.val = if (20000 : Nat) = 1 then 0 else r.val; rw [if_neg (by decide)]
    | ⟨1, _⟩ => show (0 : Nat) = if (1 : Nat) = 1 then 0 else q.val; rw [if_pos rfl])

/-- The body's value at block row `r`, column `q`: the sum's entry divided by the larger of the row's count and one. -/
theorem body_apply (x0 : Vec Ideal S20000x32 .f32) (x1 : Vec Ideal S20000x1 .f32) (r : Fin 20000) (q : Fin 32) :
    k2_pay1 x0 x1 (ix2 r q) = Ideal.div (x0 (ix2 r q)) (max (x1 (ix2 r (0 : Fin 1))) Cert.Spec.one) := by
  unfold k2_pay1
  refine (divf_apply _ _ _).trans ?_
  refine congrArg₂ Ideal.div (congrFun (shapeCast_self x0 _) _) ?_
  refine (column_spread_apply _ r q).trans ?_
  refine (maximumf_apply _ _ _).trans ?_
  exact congrArg₂ max (congrFun (shapeCast_self x1 _) _) rfl

/-- The block of sums point `t` reads, at block row `r`, column `q`, is the array's entry at row `t·20000 + r`. -/
theorem sums_block_apply (c : Dev nD) (t : Fin cfg2.N) (r : Fin 20000) (q : Fin 32)
    (hp : t.val * 20000 + r.val < 100000) :
    iblk2 (F := Ideal) V c 0 t (ix2 r q) = V c main_v31 (ix2 ⟨t.val * 20000 + r.val, hp⟩ q) := by
  unfold iblk2
  show V c main_v31 (((cfg2.win 0).blk t).view.emb (ix2 r q)) = _
  refine congrArg (V c main_v31) ?_
  obtain ⟨e0, e1, e2, e3, e4, e5, e6⟩ := block_index_eq_point t
  funext a; apply Fin.ext
  match a with
  | ⟨0, _⟩ => show win2_0.index t (0 : Fin 2) * 20000 + 1 * r.val = t.val * 20000 + r.val; omega
  | ⟨1, _⟩ => show win2_0.index t (1 : Fin 2) * 32 + 1 * q.val = q.val; omega

/-- The block of counts point `t` reads, at block row `r`, is the count of row `t·20000 + r`. -/
theorem counts_block_apply (c : Dev nD) (t : Fin cfg2.N) (r : Fin 20000)
    (hp : t.val * 20000 + r.val < 100000) :
    iblk2 (F := Ideal) V c 1 t (ix2 r (0 : Fin 1)) = V c main_v7 (ix2 ⟨t.val * 20000 + r.val, hp⟩ (0 : Fin 1)) := by
  unfold iblk2
  show V c main_v7 (((cfg2.win 1).blk t).view.emb (ix2 r (0 : Fin 1))) = _
  refine congrArg (V c main_v7) ?_
  obtain ⟨e0, e1, e2, e3, e4, e5, e6⟩ := block_index_eq_point t
  funext a; apply Fin.ext
  match a with
  | ⟨0, _⟩ => show win2_1.index t (0 : Fin 2) * 20000 + 1 * r.val = t.val * 20000 + r.val; omega
  | ⟨1, _⟩ => show win2_1.index t (1 : Fin 2) * 1 + 1 * 0 = 0; omega

/-- Block row `r`, column `q` of the output block of point `t` sits at row `t·20000 + r`, column `q` of the array. -/
theorem out_block_emb (t : Fin cfg2.N) (r : Fin 20000) (q : Fin 32)
    (hp : t.val * 20000 + r.val < 100000) :
    ((cfg2.win 2).blk t).view.emb (ix2 r q) = ix2 ⟨t.val * 20000 + r.val, hp⟩ q := by
  obtain ⟨e0, e1, e2, e3, e4, e5, e6⟩ := block_index_eq_point t
  funext a; apply Fin.ext
  match a with
  | ⟨0, _⟩ => show win2_2.index t (0 : Fin 2) * 20000 + 1 * r.val = t.val * 20000 + r.val; omega
  | ⟨1, _⟩ => show win2_2.index t (1 : Fin 2) * 32 + 1 * q.val = q.val; omega

/-- What point `t` writes back is block `t` of the specification's mean of the two arrays the region reads. -/
theorem flushed_eq_mean_block (c : Dev nD) (t : Fin cfg2.N) :
    (dat2 (F := Ideal) V c).flushed 2 t
      = ((cfg2.win 2).blk t).view.read (Elt Ideal) (Cert.Spec.mean (V c main_v31) (V c main_v7)) := by
  show (cfg2.win 2).cut (grid2.coords t) ((dat2 (F := Ideal) V c).after 2 t) = _
  rw [after2_2]
  unfold out2_2
  rw [View.canon_unit_zero zero_offset]
  simp only [View.ld_unit_zero (S := S20000x32) zero_offset, View.ld_unit_zero (S := S20000x1) zero_offset]
  funext j
  obtain ⟨r, q, rfl⟩ : ∃ (r : Fin 20000) (q : Fin 32), j = ix2 r q := ⟨j 0, j 1, eq_ix2 j⟩
  have ht : t.val < 5 := (block_index_eq_point t).2.2.2.2.2.2
  have hp : t.val * 20000 + r.val < 100000 := by have := r.isLt; omega
  show k2_pay1 (iblk2 (F := Ideal) V c 0 t) (iblk2 (F := Ideal) V c 1 t) (ix2 r q)
      = Cert.Spec.mean (V c main_v31) (V c main_v7) (((cfg2.win 2).blk t).view.emb (ix2 r q))
  refine (body_apply (iblk2 (F := Ideal) V c 0 t) (iblk2 (F := Ideal) V c 1 t) r q).trans ?_
  rw [out_block_emb t r q hp, sums_block_apply V c t r q hp, counts_block_apply V c t r hp]
  rfl

/-- An index of the array is in point `t`'s output block iff each coordinate is in the block's range on its axis. -/
theorem mem_out_block (t : Fin cfg2.N) (i : S100000x32.Idx) :
    i ∈ ((cfg2.win 2).blk t).view.set ↔ ∀ a : Fin 2, win2_2.index t a * S20000x32.size a ≤ (i a).val ∧ (i a).val < win2_2.index t a * S20000x32.size a + S20000x32.size a := by
  show i ∈ ((View.whole main_v32).slice (win2_2.rect t)).set ↔ _
  rw [View.set_slice_whole, Rect.mem_set_unit]
  exact Iff.rfl

/-- Row `i0` lies in the block of point `i0 / 20000`, and every point writes its block back: the five blocks fill the array. -/
theorem out_blocks_cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ : ∃ t : Fin cfg2.N, t.val = (i 0).val / 20000 :=
    ⟨⟨(i 0).val / 20000, by show (i 0).val / 20000 < 5; omega⟩, rfl⟩
  obtain ⟨e0, e1, e2, e3, e4, e5, e6⟩ := block_index_eq_point t
  refine ⟨t, flush2_2 t, ?_⟩
  rw [mem_out_block]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 32 ≤ (i 1).val ∧ (i 1).val < win2_2.index t (1 : Fin 2) * 32 + 32; omega

/-- The array the output window leaves after the five points is the specification's mean of the aggregated sums and
    the in-degree column as the region finds them. -/
theorem region2_array (c : Dev nD) :
    (dat2 (F := Ideal) V c).arrAt 2 cfg2.N = Cert.Spec.mean (V c main_v31) (V c main_v7) :=
  (dat2 (F := Ideal) V c).arrAt_eq_of_cover 2 _ (fun t _ => flushed_eq_mean_block V c t) out_blocks_cover

end Cert.KernelIdeal.Layer

end
-- ==== Proof.KernelValue.lean ====
/-
  The kernel program's result, read back to the arguments. The last dense stage leaves the mean of what it
  reads; what it reads is the gathered-and-summed result of the second stage, which is the second affine map of
  what that stage reads; and so on back to the arguments. Each dense stage's array is the specification's function
  of the stage's entry contents; each host stretch is the fold's equations.
-/
import proofs.«131731_j71193377899389_1_alg».proof.Proof.Network
import proofs.«131731_j71193377899389_1_alg».proof.Proof.Region0
import proofs.«131731_j71193377899389_1_alg».proof.Proof.Region1
import proofs.«131731_j71193377899389_1_alg».proof.Proof.Region2

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the first dense stage its result buffer holds the first affine map of the node features. -/
theorem first_stage_eq (c : Dev nD) : W2 m ρ c (Proc.devRef .tc main_v9)
    = Cert.Spec.lin1 (m ((c : Thread nD τ).loc main_arg0)) (m ((c : Thread nD τ).loc main_arg2)) (biasRow (m ((c : Thread nD τ).loc main_arg3))) := by
  rw [W2_t1, region0_array (V1 m ρ) c]
  show Cert.Spec.lin1 (W1 m ρ c (Proc.devRef .tc main_arg0)) (W1 m ρ c (Proc.devRef .tc main_arg2)) (W1 m ρ c (Proc.devRef .tc main_v8)) = _
  rw [W1_x, W1_w1, W1_bias]

/-- After the second dense stage its result buffer holds the second affine map of the first layer's mean. -/
theorem second_stage_eq (c : Dev nD) : W4 m ρ c (Proc.devRef .tc main_v21)
    = Cert.Spec.lin2 (gatherSum (srcOf (m ((c : Thread nD τ).loc main_arg1))) (dstOf (m ((c : Thread nD τ).loc main_arg1)))
          (Cert.Spec.lin1 (m ((c : Thread nD τ).loc main_arg0)) (m ((c : Thread nD τ).loc main_arg2)) (biasRow (m ((c : Thread nD τ).loc main_arg3)))))
        (degreeOf (dstOf (m ((c : Thread nD τ).loc main_arg1)))) (m ((c : Thread nD τ).loc main_arg4)) (biasRow (m ((c : Thread nD τ).loc main_arg5))) := by
  rw [W4_t2, region1_array (V3 m ρ) c]
  show Cert.Spec.lin2 (W3 m ρ c (Proc.devRef .tc main_v19)) (W3 m ρ c (Proc.devRef .tc main_v7)) (W3 m ρ c (Proc.devRef .tc main_arg4)) (W3 m ρ c (Proc.devRef .tc main_v20)) = _
  rw [W3_agg, W3_deg, W3_w2, W3_bias, W2_src, W2_dst, W2_deg, W2_w2, W2_b2, first_stage_eq]

/-- The result buffer at the end of the run holds the network's value at the arguments. -/
theorem result_eq (c : Dev nD) : W6 m ρ c (Proc.devRef .tc main_v32)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W6_out, region2_array (V5 m ρ) c]
  show Cert.Spec.mean (W5 m ρ c (Proc.devRef .tc main_v31)) (W5 m ρ c (Proc.devRef .tc main_v7)) = _
  rw [W5_agg, W5_deg, W4_src, W4_dst, W4_deg, second_stage_eq]
  rfl

end Cert.KernelIdeal.Layer

end
-- ==== Proof.RefLayers.lean ====
import proofs.«131731_j71193377899389_1_alg».proof.Proof.Gen.ReferenceIdeal.Read
import proofs.«131731_j71193377899389_1_alg».proof.Proof.Spec
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-!
  The reference side, read index by index on the extended reals.

  Each of the three dense stages of the specification is, as a whole array, the composition of array
  operations on the right-hand sides below, for any operand arrays:

  * the affine map of the first layer is the 128-term contraction plus the bias row repeated down the rows;
  * the affine map of the second layer is the 32-term contraction of the hidden activation (the aggregated
    sums divided row by row by `max n[p,0] 1`, then clipped below at zero) plus the repeated bias row;
  * the final mean is the aggregated sums divided row by row by `max n[p,0] 1`.

  Every equation is proved at an arbitrary index `(p, q)`: a repeated array read at `(p, q)` is its operand
  at the matching coordinates, a contraction read at `(p, q)` is the finite sum over the shared axis.
-/

/-- The clipped in-degree, spread along the 32 columns, read at row `p`, column `q`: the
    denominator `max n[p,0] 1` of row `p`. -/
theorem refDenom_ix2 (n : FVec Ideal S100000x1 .f32) (p : Fin 100000) (q : Fin 32) :
    broadcastInDim S100000x32 ![0, 1] bcast_S100000x1_S100000x32_0_1
        (maximumf n (broadcastInDim S100000x1 ![] bcast_S_S100000x1 (constant (F := Ideal) S_ .f32 0x3F800000#32)))
        (ix2 p q)
      = Cert.Spec.denom n p := by
  refine (broadcastInDim_apply _ bcast_S100000x1_S100000x32_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  unfold Cert.Spec.denom
  refine congrArg (max (n (ix2 p (0 : Fin 1)))) ?_
  exact broadcastInDim_apply _ bcast_S_S100000x1 (constant (F := Ideal) S_ .f32 0x3F800000#32) (ix2 p (0 : Fin 1)) (fun a => a.elim0) (fun a => a.elim0)

/-- The bias row, first placed as a one-row matrix and then repeated down the 100000 rows, read at row `p`,
    column `q`: the bias entry `q`. -/
theorem refBias_ix2 (b : FVec Ideal S32 .f32) (p : Fin 100000) (q : Fin 32) :
    broadcastInDim S100000x32 ![0, 1] bcast_S1x32_S100000x32_0_1 (broadcastInDim S1x32 ![1] bcast_S32_S1x32_1 b) (ix2 p q)
      = b (ix1 q) := by
  refine (broadcastInDim_apply _ bcast_S1x32_S100000x32_0_1 _ (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])).trans ?_
  exact broadcastInDim_apply _ bcast_S32_S1x32_1 b (ix2 (0 : Fin 1) q) (ix1 q) (fun a => match a with
    | ⟨0, _⟩ => by show q.val = if (32 : Nat) = 1 then 0 else q.val; rw [if_neg (by decide)])

/-- The first contraction at row `p`, column `q`: the 128-term sum of products along the shared axis. -/
theorem refDot1_ix2 (x : FVec Ideal S100000x128 .f32) (W : FVec Ideal S128x32 .f32) (p : Fin 100000) (q : Fin 32) :
    Host.dotGeneral (F := Ideal) dot_S100000x128_S128x32_S100000x32_1_0_0_1_n_n none x W (ix2 p q)
      = ∑ k : Fin 128, x (ix2 p k) * W (ix2 k q) := by
  refine (Cert.ReferenceIdeal.Read.val_main_v4_apply x W (ix2 p q)).trans ?_
  refine Finset.sum_congr rfl fun k _ => ?_
  have el : Cert.ReferenceIdeal.Read.lidx_main_v4 (ix2 p q) k = ix2 p k :=
    funext fun a => match a with
      | ⟨0, _⟩ => rfl
      | ⟨1, _⟩ => rfl
  have er : Cert.ReferenceIdeal.Read.ridx_main_v4 (ix2 p q) k = ix2 k q :=
    funext fun a => match a with
      | ⟨0, _⟩ => rfl
      | ⟨1, _⟩ => rfl
  rw [el, er]

theorem lin1_ref (x : FVec Ideal S100000x128 .f32) (W : FVec Ideal S128x32 .f32) (b : FVec Ideal S32 .f32)
    (b2 : FVec Ideal S1x32 .f32) (hb : ∀ q : Fin 32, b2 (ix2 (0 : Fin 1) q) = b (ix1 q)) :
    Cert.Spec.lin1 x W b2
      = addf (Host.dotGeneral (F := Ideal) dot_S100000x128_S128x32_S100000x32_1_0_0_1_n_n none x W)
          (broadcastInDim S100000x32 ![0, 1] bcast_S1x32_S100000x32_0_1 (broadcastInDim S1x32 ![1] bcast_S32_S1x32_1 b)) := by
  funext i
  obtain ⟨p, q, rfl⟩ : ∃ (p : Fin 100000) (q : Fin 32), i = ix2 p q :=
    ⟨⟨(i 0).val, idx2_lt0 i⟩, ⟨(i 1).val, idx2_lt1 i⟩, eq_ix2 i⟩
  rw [Cert.Spec.lin1_ix2]
  unfold Cert.Spec.lin1At
  refine Eq.trans ?_ (addf_apply _ _ _).symm
  exact congrArg₂ (· + ·) (refDot1_ix2 x W p q).symm ((hb q).trans (refBias_ix2 b p q).symm)

/-- The second contraction at row `p`, column `q`, for any left operand: the 32-term sum of products along
    the shared axis. -/
theorem refDot2_ix2 (y : FVec Ideal S100000x32 .f32) (W : FVec Ideal S32x32 .f32) (p : Fin 100000) (q : Fin 32) :
    Host.dotGeneral (F := Ideal) dot_S100000x32_S32x32_S100000x32_1_0_0_1_n_n none y W (ix2 p q)
      = ∑ k : Fin 32, y (ix2 p k) * W (ix2 k q) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx (ix2 p q) ((ValueIdx.contrEquiv1 dot_S100000x32_S32x32_S100000x32_1_0_0_1_n_n 32 rfl rfl).symm k) = ix2 p k := funext fun a => Fin.ext (by
    match a with
    | ⟨0, _⟩ => exact Cert.ReferenceIdeal.Read.lhs_main_v27_0 _ _
    | ⟨1, _⟩ => exact (Cert.ReferenceIdeal.Read.lhs_main_v27_1 _ _).trans hk)
  have er : dot_S100000x32_S32x32_S100000x32_1_0_0_1_n_n.rhsIdx (ix2 p q) ((ValueIdx.contrEquiv1 dot_S100000x32_S32x32_S100000x32_1_0_0_1_n_n 32 rfl rfl).symm k) = ix2 k q := funext fun a => Fin.ext (by
    match a with
    | ⟨0, _⟩ => exact (Cert.ReferenceIdeal.Read.rhs_main_v27_0 _ _).trans hk
    | ⟨1, _⟩ => exact Cert.ReferenceIdeal.Read.rhs_main_v27_1 _ _)
  rw [el, er]

/-- The hidden activation at row `p`, column `k`: the aggregated sum divided by the clipped in-degree of
    its row, then clipped below at zero. -/
theorem refHidden_ix2 (a : FVec Ideal S100000x32 .f32) (n : FVec Ideal S100000x1 .f32) (p : Fin 100000) (k : Fin 32) :
    maximumf (Host.divf (F := Ideal) a (broadcastInDim S100000x32 ![0, 1] bcast_S100000x1_S100000x32_0_1
          (maximumf n (broadcastInDim S100000x1 ![] bcast_S_S100000x1 (constant (F := Ideal) S_ .f32 0x3F800000#32)))))
        (broadcastInDim S100000x32 ![] bcast_S_S100000x32 (constant (F := Ideal) S_ .f32 0x00000000#32)) (ix2 p k)
      = Cert.Spec.hiddenAt a n p k := by
  refine (maximumf_apply _ _ _).trans ?_
  unfold Cert.Spec.hiddenAt
  refine congrArg₂ max ?_ ?_
  · show Ideal.div (a (ix2 p k)) _ = _
    exact congrArg (Ideal.div (a (ix2 p k))) (refDenom_ix2 n p k)
  · exact broadcastInDim_apply _ bcast_S_S100000x32 (constant (F := Ideal) S_ .f32 0x00000000#32) (ix2 p k) (fun a => a.elim0) (fun a => a.elim0)

theorem lin2_ref (a : FVec Ideal S100000x32 .f32) (n : FVec Ideal S100000x1 .f32) (W : FVec Ideal S32x32 .f32) (b : FVec Ideal S32 .f32)
    (b2 : FVec Ideal S1x32 .f32) (hb : ∀ q : Fin 32, b2 (ix2 (0 : Fin 1) q) = b (ix1 q)) :
    Cert.Spec.lin2 a n W b2
      = addf (Host.dotGeneral (F := Ideal) dot_S100000x32_S32x32_S100000x32_1_0_0_1_n_n none
            (maximumf (Host.divf (F := Ideal) a (broadcastInDim S100000x32 ![0, 1] bcast_S100000x1_S100000x32_0_1
                (maximumf n (broadcastInDim S100000x1 ![] bcast_S_S100000x1 (constant (F := Ideal) S_ .f32 0x3F800000#32)))))
              (broadcastInDim S100000x32 ![] bcast_S_S100000x32 (constant (F := Ideal) S_ .f32 0x00000000#32))) W)
          (broadcastInDim S100000x32 ![0, 1] bcast_S1x32_S100000x32_0_1 (broadcastInDim S1x32 ![1] bcast_S32_S1x32_1 b)) := by
  funext i
  obtain ⟨p, q, rfl⟩ : ∃ (p : Fin 100000) (q : Fin 32), i = ix2 p q :=
    ⟨⟨(i 0).val, idx2_lt0 i⟩, ⟨(i 1).val, idx2_lt1 i⟩, eq_ix2 i⟩
  rw [Cert.Spec.lin2_ix2]
  unfold Cert.Spec.lin2At
  refine Eq.trans ?_ (addf_apply _ _ _).symm
  refine congrArg₂ (· + ·) ?_ ((hb q).trans (refBias_ix2 b p q).symm)
  refine Eq.trans ?_ (refDot2_ix2 _ W p q).symm
  exact Finset.sum_congr rfl fun k _ => congrArg (· * W (ix2 k q)) (refHidden_ix2 a n p k).symm

theorem mean_ref (a : FVec Ideal S100000x32 .f32) (n : FVec Ideal S100000x1 .f32) :
    Cert.Spec.mean a n
      = Host.divf (F := Ideal) a (broadcastInDim S100000x32 ![0, 1] bcast_S100000x1_S100000x32_0_1
          (maximumf n (broadcastInDim S100000x1 ![] bcast_S_S100000x1 (constant (F := Ideal) S_ .f32 0x3F800000#32)))) := by
  funext i
  obtain ⟨p, q, rfl⟩ : ∃ (p : Fin 100000) (q : Fin 32), i = ix2 p q :=
    ⟨⟨(i 0).val, idx2_lt0 i⟩, ⟨(i 1).val, idx2_lt1 i⟩, eq_ix2 i⟩
  rw [Cert.Spec.mean_ix2]
  unfold Cert.Spec.meanAt
  show _ = Ideal.div (a (ix2 p q)) _
  exact congrArg (Ideal.div (a (ix2 p q))) (refDenom_ix2 n p q).symm

end Cert.RefSide

end
-- ==== Proof.RefValue.lean ====
/-
  The reference's result is the network's value at the arguments. Its last stage divides the second
  gathered-and-summed array by the clipped in-degree: the specification's mean. The array that was gathered is the
  second contraction of the clipped first mean plus the bias: the specification's second affine map. The array
  gathered before that is the first contraction plus the bias: the first affine map. Everything else — the edge
  rows, the gather, the sums into target rows, the in-degree — is the same host function on both sides.
-/
import proofs.«131731_j71193377899389_1_alg».proof.Proof.RefLayers
import proofs.«131731_j71193377899389_1_alg».proof.Proof.Network

set_option maxRecDepth 16384

noncomputable section

namespace Cert.RefSide

open Cert.ReferenceIdeal Cert.ReferenceIdeal.Gen Cert.ReferenceIdeal.Read Idealize.ShloMosaic Idealize.ShloMosaic.ValueIdx
open Cert.KernelIdeal.Layer (network biasRow biasRow_ix2 gatherSum degreeOf srcOf dstOf)

theorem ref_value (x0 : FVec Ideal S100000x128 .f32) (x1 : IVec S2x1600000 32) (x2 : FVec Ideal S128x32 .f32) (x3 : FVec Ideal S32 .f32)
    (x4 : FVec Ideal S32x32 .f32) (x5 : FVec Ideal S32 .f32) :
    val_main_v48 (F := Ideal) x0 x1 x2 x3 x4 x5 = network x0 x1 x2 x3 x4 x5 := by
  unfold network
  rw [mean_ref, lin2_ref _ _ _ x5 _ (biasRow_ix2 x5), lin1_ref _ _ x3 _ (biasRow_ix2 x3)]
  rfl

end Cert.RefSide

end
-- ==== Proof.lean ====
/-
  The certificate: the kernel program (three dense stages over row blocks, with the edge gather and the sums
  into target rows between them) and the reference end with the same array on the extended reals.

  Both are proved to end with `network` of the six arguments (Proof/Network.lean): the first affine map of the
  node features, gathered along the edge sources and summed at the edge targets, divided row by row by the
  clipped in-degree and clipped below at zero, sent through the second affine map, gathered and summed again, and
  divided by the clipped in-degree. On the kernel side each dense stage's output array is the specification's
  function of the arrays the stage reads (its five row blocks tile the array; inside a block the matrix product is
  the finite sum over the shared axis, a change of float format the identity), and the buffers between the
  stages are read back through the program to the arguments. On the reference side the generated run gives the
  result as a composition of array operations, which is the same function index by index. No law of the
  extended reals beyond reading sums and maxima at an index is used, so the finiteness of the inputs is never
  opened. The kernel's idealization rewrote nothing, so that conjunct is trivial.
-/
import proofs.«131731_j71193377899389_1_alg».proof.Defs
import proofs.«131731_j71193377899389_1_alg».proof.Proof.Gen.Kernel
import proofs.«131731_j71193377899389_1_alg».proof.Proof.Gen.Kernel.Frame
import proofs.«131731_j71193377899389_1_alg».proof.Proof.Gen.KernelIdeal
import proofs.«131731_j71193377899389_1_alg».proof.Proof.Gen.KernelIdeal.Frame
import proofs.«131731_j71193377899389_1_alg».proof.Proof.Gen.ReferenceIdeal
import proofs.«131731_j71193377899389_1_alg».proof.Proof.Gen.ReferenceIdeal.Run
import proofs.«131731_j71193377899389_1_alg».proof.Proof.Gen.ReferenceIdeal.Read
import proofs.«131731_j71193377899389_1_alg».proof.Proof.Gen.Pre_finite_inputs
import proofs.«131731_j71193377899389_1_alg».proof.Proof.ValueRun
import proofs.«131731_j71193377899389_1_alg».proof.Proof.KernelValue
import proofs.«131731_j71193377899389_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the network's value at the arguments they agree on. -/
theorem algebraic : Cert.algebraic_KernelIdeal_ReferenceIdeal := by
  intro m ρ m' ρ' _ hagree
  refine ⟨fun c => Cert.KernelIdeal.Layer.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layer.result_eq m ρ c), (h c).2⟩)
      (Cert.KernelIdeal.Layer.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2.1,
      (hagree c).2.2.2.2.1, (hagree c).2.2.2.2.2]
    exact Cert.RefSide.ref_value _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
